-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3072 : Shape := ⟨2, ![4096, 3072]⟩
abbrev S12288x3072 : Shape := ⟨2, ![12288, 3072]⟩
abbrev S12288x96 : Shape := ⟨2, ![12288, 96]⟩
abbrev S12288 : Shape := ⟨1, ![12288]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S12288x96 : S_.BroadcastsInDim S12288x96 (![] : Fin 0 → Fin S12288x96.rank)
  reducesTo_S12288x96_S_d0_1 : S12288x96.ReducesTo [0, 1] S_
  bcast_S_S12288 : S_.BroadcastsInDim S12288 (![] : Fin 0 → Fin S12288.rank)
  reducesTo_S12288_S_d0 : S12288.ReducesTo [0] S_

variable [Facts]

def fn {F : FTy → Type} [FloatOps F] (main_arg0 : FVec F S4096x3072 .f32) (main_arg1 : IVec S12288x3072 32) (main_arg2 : FVec F S12288x96 .f32) (main_arg3 : FVec F S12288 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S12288x96 .f32 := Host.absf main_arg2
  let main_cst_0 : FVec F S_ .f32 := constant S_ .f32 0x7F800000#32
  let main_v5 : FVec F S12288x96 .f32 := broadcastInDim S12288x96 ![] bcast_S_S12288x96 main_cst_0
  let main_v6 : IVec S12288x96 1 := cmpf .olt main_v4 main_v5
  let main_c_1 : IVec S_ 1 := constantI S_ 1 1#1
  let main_v7 : IVec S_ 1 := (fun x v => Host.reduce IntOp.andi x v reducesTo_S12288x96_S_d0_1 h_S_) main_v6 main_c_1
  let main_v8 : IVec S_ 1 := andi main_v3 main_v7
  let main_v9 : FVec F S12288 .f32 := Host.absf main_arg3
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  main_v13
-- ==== Kernel.lean ====
abbrev S4096x3072 : Shape := ⟨2, ![4096, 3072]⟩
abbrev S12288x3072 : Shape := ⟨2, ![12288, 3072]⟩
abbrev S12288x96 : Shape := ⟨2, ![12288, 96]⟩
abbrev S12288 : Shape := ⟨1, ![12288]⟩
abbrev S1x12288 : Shape := ⟨2, ![1, 12288]⟩
abbrev S3072 : Shape := ⟨1, ![3072]⟩
abbrev S1x3072 : Shape := ⟨2, ![1, 3072]⟩
abbrev S96 : Shape := ⟨1, ![96]⟩
abbrev S96x1 : Shape := ⟨2, ![96, 1]⟩
abbrev S_ : Shape := ⟨0, ![]⟩
abbrev S96x3072 : Shape := ⟨2, ![96, 3072]⟩
abbrev S4096x12288 : Shape := ⟨2, ![4096, 12288]⟩
abbrev S128x3072 : Shape := ⟨2, ![128, 3072]⟩
abbrev S128x96 : Shape := ⟨2, ![128, 96]⟩
abbrev S1x128 : Shape := ⟨2, ![1, 128]⟩
abbrev S4096x128 : Shape := ⟨2, ![4096, 128]⟩

abbrev nBuf : Space → Nat
  | .hbm => 33
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S12288x3072, .i32⟩
  | .hbm, ⟨2, _⟩ => ⟨S12288x96, .f32⟩
  | .hbm, ⟨3, _⟩ => ⟨S12288, .f32⟩
  | .hbm, ⟨4, _⟩ => ⟨S4096x3072, .bf16⟩
  | .hbm, ⟨5, _⟩ => ⟨S1x12288, .f32⟩
  | .hbm, ⟨6, _⟩ => ⟨S3072, .i32⟩
  | .hbm, ⟨7, _⟩ => ⟨S1x3072, .i32⟩
  | .hbm, ⟨8, _⟩ => ⟨S96, .i32⟩
  | .hbm, ⟨9, _⟩ => ⟨S96x1, .i32⟩
  | .hbm, ⟨10, _⟩ => ⟨S_, .i32⟩
  | .hbm, ⟨11, _⟩ => ⟨S_, .i32⟩
  | .hbm, ⟨12, _⟩ => ⟨S1x3072, .i32⟩
  | .hbm, ⟨13, _⟩ => ⟨S1x3072, .i32⟩
  | .hbm, ⟨14, _⟩ => ⟨S1x3072, .i32⟩
  | .hbm, ⟨15, _⟩ => ⟨S_, .i32⟩
  | .hbm, ⟨16, _⟩ => ⟨S1x3072, .i32⟩
  | .hbm, ⟨17, _⟩ => ⟨S1x3072, .i1⟩
  | .hbm, ⟨18, _⟩ => ⟨S1x3072, .i32⟩
  | .hbm, ⟨19, _⟩ => ⟨S1x3072, .i32⟩
  | .hbm, ⟨20, _⟩ => ⟨S_, .i32⟩
  | .hbm, ⟨21, _⟩ => ⟨S1x3072, .i32⟩
  | .hbm, ⟨22, _⟩ => ⟨S1x3072, .i1⟩
  | .hbm, ⟨23, _⟩ => ⟨S1x3072, .i1⟩
  | .hbm, ⟨24, _⟩ => ⟨S_, .i32⟩
  | .hbm, ⟨25, _⟩ => ⟨S1x3072, .i32⟩
  | .hbm, ⟨26, _⟩ => ⟨S1x3072, .i32⟩
  | .hbm, ⟨27, _⟩ => ⟨S1x3072, .i32⟩
  | .hbm, ⟨28, _⟩ => ⟨S96x3072, .i32⟩
  | .hbm, ⟨29, _⟩ => ⟨S96x3072, .i32⟩
  | .hbm, ⟨30, _⟩ => ⟨S96x3072, .i1⟩
  | .hbm, ⟨31, _⟩ => ⟨S96x3072, .bf16⟩
  | .hbm, ⟨32, _⟩ => ⟨S4096x12288, .f32⟩
  | .local _ .vmem, ⟨0, _⟩ => ⟨S4096x3072, .bf16⟩
  | .local _ .vmem, ⟨1, _⟩ => ⟨S128x3072, .i32⟩
  | .local _ .vmem, ⟨2, _⟩ => ⟨S128x3072, .i32⟩
  | .local _ .vmem, ⟨3, _⟩ => ⟨S128x96, .f32⟩
  | .local _ .vmem, ⟨4, _⟩ => ⟨S128x96, .f32⟩
  | .local _ .vmem, ⟨5, _⟩ => ⟨S1x128, .f32⟩
  | .local _ .vmem, ⟨6, _⟩ => ⟨S1x128, .f32⟩
  | .local _ .vmem, ⟨7, _⟩ => ⟨S96x3072, .bf16⟩
  | .local _ .vmem, ⟨8, _⟩ => ⟨S4096x128, .f32⟩
  | .local _ .vmem, ⟨9, _⟩ => ⟨S4096x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x3072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S96x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S12288_S1x12288 : S12288.ShapeCasts S1x12288
  bcast_S3072_S1x3072_1 : S3072.BroadcastsInDim S1x3072 (![1] : Fin 1 → Fin S1x3072.rank)
  bcast_S96_S96x1_0 : S96.BroadcastsInDim S96x1 (![0] : Fin 1 → Fin S96x1.rank)
  bcast_S_S1x3072 : S_.BroadcastsInDim S1x3072 (![] : Fin 0 → Fin S1x3072.rank)
  bcast_S1x3072_S96x3072_0_1 : S1x3072.BroadcastsInDim S96x3072 (![0, 1] : Fin 2 → Fin S96x3072.rank)
  bcast_S96x1_S96x3072_0_1 : S96x1.BroadcastsInDim S96x3072 (![0, 1] : Fin 2 → Fin S96x3072.rank)
  inb_S128x96_S128x96_0_0 : ∀ a, (![0, 0] : Fin 2 → Nat) a + S128x96.size a ≤ S128x96.size a
  h_S128x96 : 0 < S128x96.numel
  inb_S96x3072_S96x3072_0_0 : ∀ a, (![0, 0] : Fin 2 → Nat) a + S96x3072.size a ≤ S96x3072.size a
  h_S96x3072 : 0 < S96x3072.numel
  shapeCasts_S96x3072_S96x3072 : S96x3072.ShapeCasts S96x3072
  inb_S128x3072_S128x3072_0_0 : ∀ a, (![0, 0] : Fin 2 → Nat) a + S128x3072.size a ≤ S128x3072.size a
  h_S128x3072 : 0 < S128x3072.numel
  inb_S4096x3072_S4096x3072_0_0 : ∀ a, (![0, 0] : Fin 2 → Nat) a + S4096x3072.size a ≤ S4096x3072.size a
  h_S4096x3072 : 0 < S4096x3072.numel
  shapeCasts_S4096x3072_S4096x3072 : S4096x3072.ShapeCasts S4096x3072
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  dot_S128x96_S96x3072_S128x3072_1_0_0_1_n_n_wf : DotDims.WF S128x96 S96x3072 S128x3072 [1] [0] [0] [1] [] []
  dot_S4096x3072_S128x3072_S4096x128_1_1_0_0_n_n_wf : DotDims.WF S4096x3072 S128x3072 S4096x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x3072.size a ≤ S4096x3072.size a
  hwx0_0 : ∀ i : grid0.Coords, EltTy.bits .bf16 = 32 ∨ (Rect.block (s := S4096x3072) S4096x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3072.size a ≤ S12288x3072.size a
  hwx0_1 : ∀ i : grid0.Coords, EltTy.bits .i32 = 32 ∨ (Rect.block (s := S12288x3072) S128x3072.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x96.size a ≤ S12288x96.size a
  hwx0_2 : ∀ i : grid0.Coords, EltTy.bits .f32 = 32 ∨ (Rect.block (s := S12288x96) S128x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x12288.size a
  hwx0_3 : ∀ i : grid0.Coords, EltTy.bits .f32 = 32 ∨ (Rect.block (s := S1x12288) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x3072.size a ≤ S96x3072.size a
  hwx0_4 : ∀ i : grid0.Coords, EltTy.bits .bf16 = 32 ∨ (Rect.block (s := S96x3072) S96x3072.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x12288.size a
  hwx0_5 : ∀ i : grid0.Coords, EltTy.bits .f32 = 32 ∨ (Rect.block (s := S4096x12288) S4096x128.size (cc0_transform_5 i) (hinb0_5 i)).WholeWords (EltTy.packing .f32)

variable [Facts₀]

def dot_S128x96_S96x3072_S128x3072_1_0_0_1_n_n : DotDims S128x96 S96x3072 S128x3072 where
  lhsContracting := [1]
  rhsContracting := [0]
  lhsNonContracting := [0]
  rhsNonContracting := [1]
  lhsBatch := []
  rhsBatch := []
  wf := dot_S128x96_S96x3072_S128x3072_1_0_0_1_n_n_wf
def dot_S4096x3072_S128x3072_S4096x128_1_1_0_0_n_n : DotDims S4096x3072 S128x3072 S4096x128 where
  lhsContracting := [1]
  rhsContracting := [1]
  lhsNonContracting := [0]
  rhsNonContracting := [0]
  lhsBatch := []
  rhsBatch := []
  wf := dot_S4096x3072_S128x3072_S4096x128_1_1_0_0_n_n_wf

abbrev win0_0 : Pipeline.Window sig grid0 :=
  Pipeline.Window.ofSpec (Memref.whole main_v0) S4096x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S96x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x3072 : Shape := ⟨2, ![4096, 3072]⟩
abbrev S12288x3072 : Shape := ⟨2, ![12288, 3072]⟩
abbrev S12288x96 : Shape := ⟨2, ![12288, 96]⟩
abbrev S12288 : Shape := ⟨1, ![12288]⟩
abbrev S12288x96x32 : Shape := ⟨3, ![12288, 96, 32]⟩
abbrev S12288x96x1 : Shape := ⟨3, ![12288, 96, 1]⟩
abbrev S3072x12288 : Shape := ⟨2, ![3072, 12288]⟩
abbrev S4096x12288 : Shape := ⟨2, ![4096, 12288]⟩
abbrev S1x12288 : Shape := ⟨2, ![1, 12288]⟩

abbrev nBuf : Space → Nat
  | .hbm => 15
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S12288x3072, .i32⟩
  | .hbm, ⟨2, _⟩ => ⟨S12288x96, .f32⟩
  | .hbm, ⟨3, _⟩ => ⟨S12288, .f32⟩
  | .hbm, ⟨4, _⟩ => ⟨S12288x3072, .f32⟩
  | .hbm, ⟨5, _⟩ => ⟨S12288x96x32, .f32⟩
  | .hbm, ⟨6, _⟩ => ⟨S12288x96x1, .f32⟩
  | .hbm, ⟨7, _⟩ => ⟨S12288x96x32, .f32⟩
  | .hbm, ⟨8, _⟩ => ⟨S12288x96x32, .f32⟩
  | .hbm, ⟨9, _⟩ => ⟨S12288x3072, .f32⟩
  | .hbm, ⟨10, _⟩ => ⟨S3072x12288, .f32⟩
  | .hbm, ⟨11, _⟩ => ⟨S4096x12288, .f32⟩
  | .hbm, ⟨12, _⟩ => ⟨S1x12288, .f32⟩
  | .hbm, ⟨13, _⟩ => ⟨S4096x12288, .f32⟩
  | .hbm, ⟨14, _⟩ => ⟨S4096x12288, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S12288x3072_S12288x96x32 : S12288x3072.ShapeCasts S12288x96x32
  bcast_S12288x96_S12288x96x1_0_1 : S12288x96.BroadcastsInDim S12288x96x1 (![0, 1] : Fin 2 → Fin S12288x96x1.rank)
  bcast_S12288x96x1_S12288x96x32_0_1_2 : S12288x96x1.BroadcastsInDim S12288x96x32 (![0, 1, 2] : Fin 3 → Fin S12288x96x32.rank)
  shapeCasts_S12288x96x32_S12288x3072 : S12288x96x32.ShapeCasts S12288x3072
  transposes_S12288x3072_S3072x12288_1_0 : S12288x3072.Transposes [1, 0] S3072x12288
  bcast_S12288_S1x12288_1 : S12288.BroadcastsInDim S1x12288 (![1] : Fin 1 → Fin S1x12288.rank)
  bcast_S1x12288_S4096x12288_0_1 : S1x12288.BroadcastsInDim S4096x12288 (![0, 1] : Fin 2 → Fin S4096x12288.rank)
  dot_S4096x3072_S3072x12288_S4096x12288_1_0_0_1_n_n_wf : DotDims.WF S4096x3072 S3072x12288 S4096x12288 [1] [0] [0] [1] [] []

variable [Facts₀]

def dot_S4096x3072_S3072x12288_S4096x12288_1_0_0_1_n_n : DotDims S4096x3072 S3072x12288 S4096x12288 where
  lhsContracting := [1]
  rhsContracting := [0]
  lhsNonContracting := [0]
  rhsNonContracting := [1]
  lhsBatch := []
  rhsBatch := []
  wf := dot_S4096x3072_S3072x12288_S4096x12288_1_0_0_1_n_n_wf

class Facts : Prop extends Facts₀ where

variable [Facts]
-- ==== Proof.BlockOf32.lean ====
/-
  Two facts about blocks of 32 consecutive columns.

  Column j of a row of 3072 entries lies in block j / 32 (the quotient rounded down), one of 96 blocks.

  Floor division of whole numbers is written, for signed machine words, as the quotient rounded toward zero, less one
  when the operands' signs differ and the remainder is not zero. For a non-negative dividend and the positive divisor 32
  the signs differ only when the dividend is zero, and then the remainder is zero too: the correction never applies, the
  quotient rounded toward zero is the quotient rounded down, and on words below 2³¹ the signed quotient is the quotient of
  the numbers (`floorDiv32`).

  A row of 96 block scales s, multiplied into the 0/1 matrix whose entry (k, j) is one exactly when j / 32 = k, picks the
  scale of column j's block: Σ_k s(k) · [j / 32 = k] = s(j / 32). Every term but one is s(k) · 0, which is 0 for every
  extended real s(k), the infinities included, so nothing is asked of the scales (`sum_blockIndicator`).
-/
import Idealize.ShloMosaic.PureOps
import Idealize.ShloMosaic.PureOps.Ideal
import Mathlib.Algebra.BigOperators.Fin

noncomputable section

namespace BlockOf32

open Idealize.ShloMosaic

/-- The sign of a machine word as a word: 0, −1 or 1. -/
def sgn (x : BitVec 32) : BitVec 32 := if x = 0 then 0 else if x.msb then -1 else 1

theorem sgn_32 : sgn 32#32 = 1#32 := by decide

/-- The sign of a non-negative word is 0 for zero and 1 otherwise. -/
theorem sgn_of_lt (x : BitVec 32) (hx : x.toNat < 2 ^ 31) : sgn x = if x = 0 then 0 else 1 := by
  have hm : x.msb = false := BitVec.msb_eq_false_iff_two_mul_lt.mpr (by omega)
  unfold sgn
  rw [hm]
  simp

/-- No corner of signed division is met when dividing by 32. -/
theorem not_corner_32 (x : BitVec 32) : ¬ IntOp.SDivCorner x 32#32 := by
  intro hc; rcases hc with hc | ⟨_, hc⟩ <;> exact absurd hc (by decide)

/-- A non-negative word divided by 32, as a signed division on any unit, is the numbers' quotient. -/
theorem divsi_32 (u : ArithUnit) (x : BitVec 32) (hx : x.toNat < 2 ^ 31) :
    IntOp.divsi u x 32#32 = BitVec.ofNat 32 (x.toNat / 32) := by
  have hm : x.msb = false := BitVec.msb_eq_false_iff_two_mul_lt.mpr (by omega)
  apply BitVec.eq_of_toNat_eq
  simp only [IntOp.divsi, if_neg (not_corner_32 x), BitVec.sdiv_eq, hm, show (32#32 : BitVec 32).msb = false from by decide,
    BitVec.udiv_eq, BitVec.toNat_udiv, BitVec.toNat_ofNat, Nat.reducePow, Nat.reduceMod]
  omega

/-- Its signed remainder is the numbers' remainder. -/
theorem remsi_32 (u : ArithUnit) (x : BitVec 32) (hx : x.toNat < 2 ^ 31) :
    IntOp.remsi u x 32#32 = BitVec.ofNat 32 (x.toNat % 32) := by
  have hm : x.msb = false := BitVec.msb_eq_false_iff_two_mul_lt.mpr (by omega)
  apply BitVec.eq_of_toNat_eq
  simp only [IntOp.remsi, if_neg (not_corner_32 x), BitVec.srem_eq, hm, show (32#32 : BitVec 32).msb = false from by decide,
    BitVec.umod_eq, BitVec.toNat_umod, BitVec.toNat_ofNat, Nat.reducePow, Nat.reduceMod]
  omega

/-- Floor division of a non-negative word by 32, in its signed-word spelling: the quotient rounded toward zero, less one
    when the signs differ and the remainder is not zero. The correction never applies, and the result is the numbers'
    quotient rounded down. -/
theorem floorDiv32 (u : ArithUnit) (x : BitVec 32) (hx : x.toNat < 2 ^ 31) :
    Scalar.select (IntOp.andi (IntOp.cmpi .ne (sgn x) (sgn 32#32)) (IntOp.cmpi .ne (IntOp.remsi u x 32#32) 0#32))
      (IntOp.subi (IntOp.divsi u x 32#32) 1#32) (IntOp.divsi u x 32#32)
      = BitVec.ofNat 32 (x.toNat / 32) := by
  rw [divsi_32 u x hx, remsi_32 u x hx, sgn_32, sgn_of_lt x hx]
  have hc : IntOp.andi (IntOp.cmpi .ne (if x = 0 then (0 : BitVec 32) else 1) 1#32)
      (IntOp.cmpi .ne (BitVec.ofNat 32 (x.toNat % 32)) 0#32) = 0#1 := by
    by_cases h0 : x = 0
    · subst h0
      decide
    · rw [if_neg h0]
      have : IntOp.cmpi .ne (1 : BitVec 32) 1#32 = 0#1 := by decide
      rw [this]
      unfold IntOp.andi
      exact BitVec.zero_and
  rw [hc]
  exact if_neg (by decide)

/-- The sum of the scales against column j's indicator column is the scale of column j's block. -/
theorem sum_blockIndicator (s : Fin 96 → EReal) (j : Fin 3072) :
    ∑ k : Fin 96, s k * (if j.val / 32 = k.val then (1 : EReal) else 0)
      = s ⟨j.val / 32, by have := j.isLt; omega⟩ := by
  rw [Finset.sum_eq_single (⟨j.val / 32, by have := j.isLt; omega⟩ : Fin 96)]
  · rw [if_pos rfl, mul_one]
  · intro k _ hk
    rw [if_neg (fun h => hk (Fin.ext h.symm)), mul_zero]
  · intro h; exact absurd (Finset.mem_univ _) h

end BlockOf32

end
-- ==== Proof.HostSide.lean ====
/-
  The 0/1 matrix the host builds before the call, as the region finds it.

  The host lays the column positions 0 … 3071 along a row, divides each by 32 rounding down (in its signed-word spelling:
  the quotient toward zero, less one when the signs differ and the remainder is not zero), lays the block numbers 0 … 95
  down a column, and compares the two: entry (k, j) of the 96×3072 result is the bit "j / 32 = k", converted to a float.
  Over the extended reals that entry is 1 when column j lies in block k and 0 otherwise (`blockIndicator_apply`).

  The same stretch of host operations passes the activations through a change of float format, which over the extended
  reals changes nothing, and lays the bias out as a one-row matrix.
-/
import proofs.«140299_j37804302139505_1_alg».proof.Proof.Gen.KernelIdeal.Frame
import proofs.«140299_j37804302139505_1_alg».proof.Proof.BlockOf32
import Idealize.ShloMosaic.Lib.StableHlo.Run
import Idealize.ShloMosaic.Lib.Pipeline.Value
import Idealize.ShloMosaic.Lib.ValueIdx
import Idealize.ShloMosaic.PureOps.Ideal
import Idealize.ShloMosaic.Lib.StableHlo.Predicate

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The host's arrays, named -/

/-- The column positions 0 … 3071 as a one-row array of words. -/
def colPos : IVec S1x3072 32 := broadcastInDim S1x3072 ![1] bcast_S3072_S1x3072_1 (iotaInDim S3072 32 0)

/-- A word repeated along the row. -/
def splat (b : IVec S_ 32) : IVec S1x3072 32 := broadcastInDim S1x3072 ![] bcast_S_S1x3072 b

/-- The positions divided by 32. -/
def quot : IVec S1x3072 32 := Host.divsi colPos (splat (constantI S_ 32 32#32))

/-- Each column's block number: the floor division of its position by 32, in its signed-word spelling. -/
def colBlock : IVec S1x3072 32 :=
  select
    (andi (cmpi .ne (signi colPos) (splat (signi (constantI S_ 32 32#32))))
      (cmpi .ne (Host.remsi colPos (splat (constantI S_ 32 32#32))) (splat (constantI S_ 32 0#32))))
    (subi quot (splat (constantI S_ 32 1#32))) quot

/-- The block numbers 0 … 95 down the rows of a 96×3072 array. -/
def rowBlock : IVec S96x3072 32 :=
  broadcastInDim S96x3072 ![0, 1] bcast_S96x1_S96x3072_0_1 (broadcastInDim S96x1 ![0] bcast_S96_S96x1_0 (iotaInDim S96 32 0))

/-- The bit "column j lies in block k", as a float. -/
def blockIndicator : FVec F S96x3072 .bf16 :=
  uitofp .bf16 (cmpi .eq (broadcastInDim S96x3072 ![0, 1] bcast_S1x3072_S96x3072_0_1 colBlock) rowBlock)

/-! ## What the region finds -/

variable (m : (ℓ : Loc nD τ sig) → Buf (Elt F) ℓ)

set_option maxHeartbeats 2000000 in
/-- The fifth operand of the call is the block indicator. -/
theorem entry_indicator (c : Dev nD) : V m c main_v10 = blockIndicator (F := F) := by
  dsimp only [Gen.V]
  simp only [Gen.hostOps0, Gen.hostOps0_1, Gen.hostOps0_2, List.flatten_cons, List.flatten_nil, List.append_nil, List.cons_append,
    List.nil_append]
  after_results_simp
  rfl

set_option maxHeartbeats 2000000 in
/-- The first operand of the call is the activations narrowed to the shorter float format. -/
theorem entry_activations (c : Dev nD) :
    V m c main_v0 = (truncf .bf16 (m ((c : Thread nD τ).loc main_arg0) : FVec F S4096x3072 .f32) bitsLt_bf16_f32 : FVec F S4096x3072 .bf16) := by
  dsimp only [Gen.V]
  simp only [Gen.hostOps0, Gen.hostOps0_1, Gen.hostOps0_2, List.flatten_cons, List.flatten_nil, List.append_nil, List.cons_append,
    List.nil_append]
  after_results_simp

set_option maxHeartbeats 2000000 in
/-- The fourth operand of the call is the bias as a one-row matrix. -/
theorem entry_bias (c : Dev nD) :
    V m c main_v1 = (shapeCast S1x12288 (m ((c : Thread nD τ).loc main_arg3) : FVec F S12288 .f32) shapeCasts_S12288_S1x12288 : FVec F S1x12288 .f32) := by
  dsimp only [Gen.V]
  simp only [Gen.hostOps0, Gen.hostOps0_1, Gen.hostOps0_2, List.flatten_cons, List.flatten_nil, List.append_nil, List.cons_append,
    List.nil_append]
  after_results_simp
  rfl

/-! ## The indicator at an entry -/

/-- Column j's position word. -/
theorem colPos_apply (j : Fin 3072) : colPos (ix2 (0 : Fin 1) j) = BitVec.ofNat 32 j.val := by
  unfold colPos
  rw [broadcastInDim_apply _ bcast_S3072_S1x3072_1 _ (ix2 (0 : Fin 1) j) (ix1 j) (fun a => match a with
    | ⟨0, _⟩ => by show j.val = if (3072 : Nat) = 1 then 0 else j.val; rw [if_neg (by decide)])]
  rfl

/-- Column j's block number is j / 32. -/
theorem colBlock_apply (j : Fin 3072) : colBlock (ix2 (0 : Fin 1) j) = BitVec.ofNat 32 (j.val / 32) := by
  have hj := j.isLt
  have hn : (BitVec.ofNat 32 j.val).toNat = j.val := by
    rw [BitVec.toNat_ofNat]; exact Nat.mod_eq_of_lt (by omega)
  have h := BlockOf32.floorDiv32 .host (BitVec.ofNat 32 j.val) (by rw [hn]; omega)
  rw [hn] at h
  rw [← h, ← colPos_apply j]
  rfl

/-- Entry (k, j) of the indicator is 1 when column j lies in block k, and 0 otherwise. -/
theorem blockIndicator_apply (k : Fin 96) (j : Fin 3072) :
    blockIndicator (F := Ideal) (ix2 k j) = if j.val / 32 = k.val then (1 : EReal) else 0 := by
  have hj := j.isLt
  have hk := k.isLt
  have e1 : broadcastInDim S96x3072 ![0, 1] bcast_S1x3072_S96x3072_0_1 colBlock (ix2 k j) = BitVec.ofNat 32 (j.val / 32) := by
    rw [broadcastInDim_apply _ bcast_S1x3072_S96x3072_0_1 _ (ix2 k j) (ix2 (0 : Fin 1) j) (fun a => match a with
      | ⟨0, _⟩ => by show 0 = if (1 : Nat) = 1 then 0 else k.val; rw [if_pos rfl]
      | ⟨1, _⟩ => by show j.val = if (3072 : Nat) = 1 then 0 else j.val; rw [if_neg (by decide)])]
    exact colBlock_apply j
  have e2 : rowBlock (ix2 k j) = BitVec.ofNat 32 k.val := by
    unfold rowBlock
    rw [broadcastInDim_apply _ bcast_S96x1_S96x3072_0_1 _ (ix2 k j) (ix2 k (0 : Fin 1)) (fun a => match a with
      | ⟨0, _⟩ => by show k.val = if (96 : Nat) = 1 then 0 else k.val; rw [if_neg (by decide)]
      | ⟨1, _⟩ => by show 0 = if (1 : Nat) = 1 then 0 else j.val; rw [if_pos rfl]),
      broadcastInDim_apply _ bcast_S96_S96x1_0 _ (ix2 k (0 : Fin 1)) (ix1 k) (fun a => match a with
      | ⟨0, _⟩ => by show k.val = if (96 : Nat) = 1 then 0 else k.val; rw [if_neg (by decide)])]
    rfl
  show (((IntOp.cmpi .eq (broadcastInDim S96x3072 ![0, 1] bcast_S1x3072_S96x3072_0_1 colBlock (ix2 k j)) (rowBlock (ix2 k j))).toNat : ℝ) : EReal) = _
  rw [e1, e2]
  by_cases h : j.val / 32 = k.val
  · rw [if_pos h, h]
    have : IntOp.cmpi .eq (BitVec.ofNat 32 k.val) (BitVec.ofNat 32 k.val) = 1#1 :=
      StableHlo.Predicate.cmpi_eq_iff.mpr rfl
    rw [this]
    norm_num
  · rw [if_neg h]
    have hne : ¬ IntOp.cmpi .eq (BitVec.ofNat 32 (j.val / 32)) (BitVec.ofNat 32 k.val) = 1#1 := fun hc => by
      have := congrArg BitVec.toNat (StableHlo.Predicate.cmpi_eq_iff.mp hc)
      rw [BitVec.toNat_ofNat, BitVec.toNat_ofNat, Nat.mod_eq_of_lt (by omega), Nat.mod_eq_of_lt (by omega)] at this
      exact h this
    rw [eq_zero_of_ne_one hne]
    norm_num

end Cert.KernelIdeal.HostSide

end
-- ==== Proof.LibProductNT.lean ====
/-
  A matrix times the transpose of another, over the extended reals.

  Entry (a, b) of A·Bᵀ, for an r×k matrix A and an n×k matrix B, is the sum over the shared column coordinate c of
  A(a, c) · B(b, c). Addition of extended reals is commutative and associative, so this is a plain finite sum: no order
  of summation is left in it and nothing asks that an entry be finite.

  The matrix unit forms such a product (both operands contracted along axis 1) and adds it to an accumulator; into a zero
  accumulator it leaves exactly that entry (`matmul_zero_apply`), whatever float formats the factors were narrowed to on
  the way, a change of format being the identity at the ideal values.

  A long row splits into consecutive stretches of equal length: a sum over m·n columns is the sum over the m stretches of
  the sums over each stretch's n columns (`sum_stretches`).
-/
import Idealize.ShloMosaic.Lib.ValueIdx
import Idealize.ShloMosaic.PureOps.Ideal.Laws
import Mathlib.Algebra.BigOperators.Fin
import Mathlib.Logic.Equiv.Fin.Basic

noncomputable section

namespace ProductNT

open Idealize.ShloMosaic Idealize.ShloMosaic.ValueIdx

variable {r k n : Nat}

/-- Entry (a, b) of A·Bᵀ. -/
def entry (A : (⟨2, ![r, k]⟩ : Shape).Idx → EReal) (B : (⟨2, ![n, k]⟩ : Shape).Idx → EReal) (a : Fin r) (b : Fin n) : EReal :=
  ∑ c : Fin k, A (ix2 a c) * B (ix2 b c)

/-- The matrix unit's product of an r×k by an n×k operand, both contracted along their second axis, accumulated into a
    zero block and read at (a, b), is that entry. -/
theorem matmul_zero_apply {φ₁ φ₂ : FTy}
    (w : DotDims.WF ⟨2, ![r, k]⟩ ⟨2, ![n, k]⟩ ⟨2, ![r, n]⟩ [1] [1] [0] [0] [] [])
    (prec : Option ContractPrecision) (A : FVec Ideal ⟨2, ![r, k]⟩ φ₁) (B : FVec Ideal ⟨2, ![n, k]⟩ φ₂) (a : Fin r) (b : Fin n) :
    matmul (⟨[1], [1], [0], [0], [], [], w⟩ : DotDims _ _ _) prec A B (constant (F := Ideal) ⟨2, ![r, n]⟩ .f32 0x00000000#32) (ix2 a b)
      = entry A B a b := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![r, k]⟩ ⟨2, ![n, k]⟩ ⟨2, ![r, n]⟩) k rfl rfl c
  have l2 : (⟨[1], [1], [0], [0], [], [], w⟩ : DotDims ⟨2, ![r, k]⟩ ⟨2, ![n, k]⟩ ⟨2, ![r, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![r, k]⟩ ⟨2, ![n, k]⟩ ⟨2, ![r, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A sum over m·n consecutive columns is the sum, over the m stretches of n columns, of each stretch's sum. -/
theorem sum_stretches {M : Type*} [AddCommMonoid M] (m n : Nat) (f : Fin (m * n) → M) :
    ∑ c : Fin (m * n), f c
      = ∑ s : Fin m, ∑ j : Fin n, f ⟨s.val * n + j.val, by
          have hs := s.isLt; have hj := j.isLt
          calc s.val * n + j.val < s.val * n + n := by omega
            _ = (s.val + 1) * n := by ring
            _ ≤ m * n := Nat.mul_le_mul_right n hs⟩ := by
  rw [← Equiv.sum_comp finProdFinEquiv f, Fintype.sum_prod_type]
  refine Finset.sum_congr rfl fun s _ => Finset.sum_congr rfl fun j _ => congrArg f (Fin.ext ?_)
  show j.val + n * s.val = s.val * n + j.val
  rw [Nat.mul_comm, Nat.add_comm]

end ProductNT

end
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.Tile.lean ====
/-
  What the kernel body computes for one tile of 128 output features.

  The body holds all 4096 activation rows x, and for the tile's 128 output features n the whole numbers q(n, ·), the 96
  block scales s(n, ·) and the biases. It is also handed a 96×3072 matrix E. It forms

      S = s · E                  (128×3072: entry (n, j) is Σ_k s(n, k) · E(k, j)),
      W = q ⊙ S                  (entry by entry, the whole numbers read as reals),
      Y = x · Wᵀ + bias          (4096×128: entry (t, n) is Σ_j x(t, j) · W(n, j), plus the bias of n),

  both products accumulated from zero. The changes of float format in between are the identity over the extended reals,
  so entry (t, n) of the tile is

      Σ_j x(t, j) · ( q(n, j) · Σ_k s(n, k) · E(k, j) )  +  bias(n).
-/
import proofs.«140299_j37804302139505_1_alg».proof.Proof.Gen.KernelIdeal.Skeleton
import proofs.«140299_j37804302139505_1_alg».proof.Proof.LibProductNT
import proofs.«140299_j37804302139505_1_alg».proof.Proof.LibSideBySide
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The scales spread over the columns: entry (n, j) of s · E. -/
theorem spread_apply (s : FVec Ideal S128x96 .f32) (E : FVec Ideal S96x3072 .bf16) (n : Fin 128) (j : Fin 3072) :
    matmul dot_S128x96_S96x3072_S128x3072_1_0_0_1_n_n none (truncf .bf16 s bitsLt_bf16_f32)
        (shapeCast S96x3072 E shapeCasts_S96x3072_S96x3072) (constant (F := Ideal) S128x3072 .f32 0x00000000#32) (ix2 n j)
      = ∑ k : Fin 96, s (ix2 n k) * E (ix2 k j) := by
  rw [shapeCast_self]
  exact SideBySide.kernelProduct_apply dot_S128x96_S96x3072_S128x3072_1_0_0_1_n_n rfl none
    (truncf .bf16 s bitsLt_bf16_f32) E n j

/-- Entry (t, n) of the tile the body stores. -/
theorem tile_apply (s : Vec Ideal S128x96 .f32) (E : Vec Ideal S96x3072 .bf16) (q : Vec Ideal S128x3072 .i32)
    (x : Vec Ideal S4096x3072 .bf16) (b : Vec Ideal S1x128 .f32) (t : Fin 4096) (n : Fin 128) :
    k0_pay1 (F := Ideal) s E q x b (ix2 t n)
      = (∑ j : Fin 3072, x (ix2 t j) * ((((q (ix2 n j)).toInt : ℝ) : EReal) * ∑ k : Fin 96, s (ix2 n k) * E (ix2 k j)))
        + b (ix2 (0 : Fin 1) n) := by
  unfold k0_pay1
  rw [addf_apply]
  congr 1
  · rw [shapeCast_self]
    refine (ProductNT.matmul_zero_apply dot_S4096x3072_S128x3072_S4096x128_1_1_0_0_n_n_wf none x _ t n).trans ?_
    unfold ProductNT.entry
    refine Finset.sum_congr rfl fun j _ => ?_
    rw [truncf_apply, mulf_apply, spread_apply s E n j]
    rfl
  · rw [shapeCast_self]
    exact broadcastTo_apply b broadcasts_S1x128_S4096x128 (ix2 t n) (ix2 (0 : Fin 1) n) (fun a => match a with
      | ⟨0, _⟩ => by show 0 = if (1 : Nat) = 1 then 0 else _; rw [if_pos rfl]
      | ⟨1, _⟩ => by show n.val = if (128 : Nat) = 1 then 0 else n.val; rw [if_neg (by decide)])

end Cert.KernelIdeal.Tile

end
-- ==== Proof.DequantLinear.lean ====
/-
  A linear layer whose weight matrix is stored as 8-bit-style quantized blocks.

  The weight matrix has 12288 rows (output features) and 3072 columns (input features). Row n is stored as 3072 whole
  numbers q(n, j) together with 96 scales s(n, k), one for each block of 32 consecutive columns; the weight itself is

      W(n, j) = q(n, j) · s(n, j / 32),

  the whole number read as a real number and j / 32 the block that holds column j. The layer sends a batch of 4096 input rows
  x(t, ·) to

      y(t, n) = Σ_j x(t, j) · W(n, j) + b(n),

  the product of x with the transpose of W, plus the bias. Everything is read over the extended reals, where a sum is a
  plain finite sum with no order of summation left in it.
-/
import Idealize.ShloMosaic.Lib.ValueIdx
import Idealize.ShloMosaic.PureOps.Ideal

noncomputable section

namespace DequantLinear

open Idealize.ShloMosaic Idealize.ShloMosaic.ValueIdx

/-- The block of 32 columns that holds column j. -/
def blockOf (j : Fin 3072) : Fin 96 := ⟨j.val / 32, by have := j.isLt; omega⟩

/-- The dequantized weight W(n, j): the stored whole number times the scale of its block. -/
def weight (q : (⟨2, ![12288, 3072]⟩ : Shape).Idx → BitVec 32) (s : (⟨2, ![12288, 96]⟩ : Shape).Idx → EReal)
    (n : Fin 12288) (j : Fin 3072) : EReal :=
  (((q (ix2 n j)).toInt : ℝ) : EReal) * s (ix2 n (blockOf j))

/-- The layer's output y(t, n) = Σ_j x(t, j) · W(n, j) + b(n), as one function of the four arrays. -/
def output (x : (⟨2, ![4096, 3072]⟩ : Shape).Idx → EReal) (q : (⟨2, ![12288, 3072]⟩ : Shape).Idx → BitVec 32)
    (s : (⟨2, ![12288, 96]⟩ : Shape).Idx → EReal) (b : (⟨1, ![12288]⟩ : Shape).Idx → EReal) :
    (⟨2, ![4096, 12288]⟩ : Shape).Idx → EReal :=
  fun i => (∑ j : Fin 3072, x (ix2 (i 0) j) * weight q s (i 1) j) + b (ix1 (i 1))

theorem output_apply (x : (⟨2, ![4096, 3072]⟩ : Shape).Idx → EReal) (q : (⟨2, ![12288, 3072]⟩ : Shape).Idx → BitVec 32)
    (s : (⟨2, ![12288, 96]⟩ : Shape).Idx → EReal) (b : (⟨1, ![12288]⟩ : Shape).Idx → EReal) (t : Fin 4096) (n : Fin 12288) :
    output x q s b (ix2 t n) = (∑ j : Fin 3072, x (ix2 t j) * weight q s n j) + b (ix1 n) := rfl

end DequantLinear

end
-- ==== Proof.TileOfLayer.lean ====
/-
  A tile of the kernel is a block of columns of the layer's output.

  Tile number g (of 96) is handed rows 128·g … 128·g + 127 of the quantized weights, of their scales and of the bias, all of
  the activations, and the 0/1 matrix E with E(k, j) = 1 exactly when column j lies in block k. Spreading the scales through
  E picks, for column j, the scale of block j / 32: Σ_k s(n, k) · E(k, j) = s(n, j / 32), every other term being a scale times
  zero. So the tile's entry (t, r) is Σ_j x(t, j) · q(n, j) · s(n, j / 32) + bias(n) at n = 128·g + r: entry (t, n) of the layer's
  output.
-/
import proofs.«140299_j37804302139505_1_alg».proof.Proof.Tile
import proofs.«140299_j37804302139505_1_alg».proof.Proof.DequantLinear
import proofs.«140299_j37804302139505_1_alg».proof.Proof.BlockOf32

noncomputable section

namespace Cert.KernelIdeal.Tile

open Cert.KernelIdeal Cert.KernelIdeal.Gen Idealize.ShloMosaic Idealize.ShloMosaic.ValueIdx

/-- Output feature r of tile g. -/
def feature (g : Nat) (hg : g < 96) (r : Fin 128) : Fin 12288 := ⟨g * 128 + r.val, by have := r.isLt; omega⟩

/-- Entry (t, r) of tile g is entry (t, 128·g + r) of the layer's output, when the tile's operands are the rows of the
    arrays that belong to it and E is the block indicator. -/
theorem tile_eq_output (x : (⟨2, ![4096, 3072]⟩ : Shape).Idx → EReal) (q : (⟨2, ![12288, 3072]⟩ : Shape).Idx → BitVec 32)
    (s : (⟨2, ![12288, 96]⟩ : Shape).Idx → EReal) (b : (⟨1, ![12288]⟩ : Shape).Idx → EReal)
    (g : Nat) (hg : g < 96)
    (sb : Vec Ideal S128x96 .f32) (E : Vec Ideal S96x3072 .bf16) (qb : Vec Ideal S128x3072 .i32)
    (xb : Vec Ideal S4096x3072 .bf16) (bb : Vec Ideal S1x128 .f32)
    (hx : ∀ (t : Fin 4096) (j : Fin 3072), xb (ix2 t j) = x (ix2 t j))
    (hq : ∀ (r : Fin 128) (j : Fin 3072), qb (ix2 r j) = q (ix2 (feature g hg r) j))
    (hs : ∀ (r : Fin 128) (k : Fin 96), sb (ix2 r k) = s (ix2 (feature g hg r) k))
    (hb : ∀ r : Fin 128, bb (ix2 (0 : Fin 1) r) = b (ix1 (feature g hg r)))
    (hE : ∀ (k : Fin 96) (j : Fin 3072), E (ix2 k j) = if j.val / 32 = k.val then (1 : EReal) else 0)
    (t : Fin 4096) (r : Fin 128) :
    k0_pay1 (F := Ideal) sb E qb xb bb (ix2 t r) = DequantLinear.output x q s b (ix2 t (feature g hg r)) := by
  rw [tile_apply, DequantLinear.output_apply, hb]
  congr 1
  refine Finset.sum_congr rfl fun j _ => ?_
  rw [hx, hq]
  unfold DequantLinear.weight
  congr 2
  have e : ∀ k : Fin 96, sb (ix2 r k) * E (ix2 k j) = s (ix2 (feature g hg r) k) * (if j.val / 32 = k.val then (1 : EReal) else 0) :=
    fun k => by rw [hs, hE]
  rw [Finset.sum_congr rfl fun k _ => e k]
  exact BlockOf32.sum_blockIndicator (fun k => s (ix2 (feature g hg r) k)) j

end Cert.KernelIdeal.Tile

end
-- ==== Proof.Whole.lean ====
/-
  From the tiles to the whole output array.

  The grid has 96 points. Point g works on tile g: it reads all of the activations and all of the block indicator, rows
  128·g … 128·g + 127 of the quantized weights and of the scales, and columns 128·g … 128·g + 127 of the one-row bias; it writes
  columns 128·g … 128·g + 127 of the 4096×12288 output. What it writes is that block of columns of the layer's output
  (`written_eq`), and the 96 blocks of 128 columns tile the 12288 columns, column n belonging to point n / 128 (`covered`).
  So the output array ends holding the layer's output (`result`).
-/
import proofs.«140299_j37804302139505_1_alg».proof.Proof.Gen.KernelIdeal.Value
import proofs.«140299_j37804302139505_1_alg».proof.Proof.HostSide
import proofs.«140299_j37804302139505_1_alg».proof.Proof.TileOfLayer

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The argument arrays and the layer's output of them -/

abbrev acts (c : Dev nD) : FVec Ideal S4096x3072 .f32 := m ((c : Thread nD τ).loc main_arg0)
abbrev quants (c : Dev nD) : IVec S12288x3072 32 := m ((c : Thread nD τ).loc main_arg1)
abbrev scales (c : Dev nD) : FVec Ideal S12288x96 .f32 := m ((c : Thread nD τ).loc main_arg2)
abbrev bias (c : Dev nD) : FVec Ideal S12288 .f32 := m ((c : Thread nD τ).loc main_arg3)

/-- The layer's output of the four argument arrays of core c. -/
abbrev layer (c : Dev nD) : FVec Ideal S4096x12288 .f32 :=
  DequantLinear.output (acts m c) (quants m c) (scales m c) (bias m c)

/-! ## Which block each window is on at a point -/

theorem hz : (![0, 0] : Fin 2 → Nat) = fun _ => 0 := funext fun a => by fin_cases a <;> rfl

/-- The printed index maps, decided over the 96 points: the activations and the indicator stay on their one block, the
    weights and scales move down the rows with the point, the bias and the output move along the columns with it. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem point_lt (t : Fin cfg0.N) : t.val < 96 := lt_of_lt_of_eq t.isLt N_0

/-! ## The input blocks at a point -/

/-- The activations' block is the whole array, the change of float format being the identity. -/
theorem acts_block (c : Dev nD) (t : Fin cfg0.N) (p : Fin 4096) (j : Fin 3072) :
    iblk m c 0 t (ix2 p j) = acts m c (ix2 p j) := by
  obtain ⟨e00, e01, -⟩ := idx_facts t
  show V m c main_v0 (((cfg0.win 0).blk t).view.emb (ix2 p j)) = _
  rw [HostSide.entry_activations]
  show acts m c (((cfg0.win 0).blk t).view.emb (ix2 p j)) = _
  refine congrArg _ (funext fun a => Fin.ext ?_)
  match a with
  | ⟨0, _⟩ => show win0_0.index t (0 : Fin 2) * 4096 + 1 * p.val = p.val; omega
  | ⟨1, _⟩ => show win0_0.index t (1 : Fin 2) * 3072 + 1 * j.val = j.val; omega

/-- The quantized weights' block is the tile's 128 rows. -/
theorem quants_block (c : Dev nD) (t : Fin cfg0.N) (r : Fin 128) (j : Fin 3072) :
    iblk m c 1 t (ix2 r j) = quants m c (ix2 (Tile.feature t.val (point_lt t) r) j) := by
  obtain ⟨-, -, e10, e11, -⟩ := idx_facts t
  show V m c main_arg1 (((cfg0.win 1).blk t).view.emb (ix2 r j)) = _
  rw [V_main_arg1]
  refine congrArg _ (funext fun a => Fin.ext ?_)
  match a with
  | ⟨0, _⟩ => show win0_1.index t (0 : Fin 2) * 128 + 1 * r.val = t.val * 128 + r.val; omega
  | ⟨1, _⟩ => show win0_1.index t (1 : Fin 2) * 3072 + 1 * j.val = j.val; omega

/-- The scales' block is the tile's 128 rows. -/
theorem scales_block (c : Dev nD) (t : Fin cfg0.N) (r : Fin 128) (k : Fin 96) :
    iblk m c 2 t (ix2 r k) = scales m c (ix2 (Tile.feature t.val (point_lt t) r) k) := by
  obtain ⟨-, -, -, -, e20, e21, -⟩ := idx_facts t
  show V m c main_arg2 (((cfg0.win 2).blk t).view.emb (ix2 r k)) = _
  rw [V_main_arg2]
  refine congrArg _ (funext fun a => Fin.ext ?_)
  match a with
  | ⟨0, _⟩ => show win0_2.index t (0 : Fin 2) * 128 + 1 * r.val = t.val * 128 + r.val; omega
  | ⟨1, _⟩ => show win0_2.index t (1 : Fin 2) * 96 + 1 * k.val = k.val; omega

/-- The bias' block is the tile's 128 entries of the bias laid out as one row. -/
theorem bias_block (c : Dev nD) (t : Fin cfg0.N) (r : Fin 128) :
    iblk m c 3 t (ix2 (0 : Fin 1) r) = bias m c (ix1 (Tile.feature t.val (point_lt t) r)) := by
  obtain ⟨-, -, -, -, -, -, e30, e31, -⟩ := idx_facts t
  have hr := r.isLt
  have ht := point_lt t
  show V m c main_v1 (((cfg0.win 3).blk t).view.emb (ix2 (0 : Fin 1) r)) = _
  rw [HostSide.entry_bias]
  refine shapeCast_apply _ shapeCasts_S12288_S1x12288 _ (ix1 (Tile.feature t.val (point_lt t) r)) ?_
  rw [Shape.rowMajor_val_one, Shape.rowMajor_val_two]
  show t.val * 128 + r.val = (win0_3.index t (0 : Fin 2) * 1 + 1 * 0) * 12288 + (win0_3.index t (1 : Fin 2) * 128 + 1 * r.val)
  omega

/-- The indicator's block is the whole indicator. -/
theorem indicator_block (c : Dev nD) (t : Fin cfg0.N) (k : Fin 96) (j : Fin 3072) :
    iblk m c 4 t (ix2 k j) = if j.val / 32 = k.val then (1 : EReal) else 0 := by
  obtain ⟨-, -, -, -, -, -, -, -, e40, e41, -⟩ := idx_facts t
  show V m c main_v10 (((cfg0.win 4).blk t).view.emb (ix2 k j)) = _
  rw [HostSide.entry_indicator]
  refine Eq.trans (congrArg _ (funext fun a => Fin.ext ?_)) (HostSide.blockIndicator_apply k j)
  match a with
  | ⟨0, _⟩ => show win0_4.index t (0 : Fin 2) * 96 + 1 * k.val = k.val; omega
  | ⟨1, _⟩ => show win0_4.index t (1 : Fin 2) * 3072 + 1 * j.val = j.val; omega

/-! ## What a point writes, and where -/

/-- What point t writes back is its block of columns of the layer's output. -/
theorem written_eq (c : Dev nD) (t : Fin cfg0.N) :
    (dats m 0 c).flushed 5 t = ((cfg0.win 5).blk t).view.read (Elt Ideal) (layer m c) := by
  rw [Value.flushed5]
  unfold out0_5
  rw [View.canon_unit_zero hz]
  simp only [View.ld_unit_zero (S := S128x96) hz, View.ld_unit_zero (S := S96x3072) hz, View.ld_unit_zero (S := S128x3072) hz,
    View.ld_unit_zero (S := S4096x3072) hz, View.ld_unit_zero (S := S1x128) hz]
  funext y
  obtain ⟨p, r, rfl⟩ : ∃ (p : Fin 4096) (r : Fin 128), y = ix2 p r := ⟨y 0, y 1, eq_ix2 y⟩
  obtain ⟨-, -, -, -, -, -, -, -, -, -, e50, e51⟩ := idx_facts t
  show k0_pay1 (F := Ideal) (iblk m c 2 t) (iblk m c 4 t) (iblk m c 1 t) (iblk m c 0 t) (iblk m c 3 t) (ix2 p r)
    = layer m c (((cfg0.win 5).blk t).view.emb (ix2 p r))
  refine (Tile.tile_eq_output (acts m c) (quants m c) (scales m c) (bias m c) t.val (point_lt t)
    (iblk m c 2 t) (iblk m c 4 t) (iblk m c 1 t) (iblk m c 0 t) (iblk m c 3 t)
    (acts_block m c t) (quants_block m c t) (scales_block m c t) (bias_block m c t) (indicator_block m c t) p r).trans ?_
  refine congrArg _ (funext fun a => Fin.ext ?_)
  match a with
  | ⟨0, _⟩ => show p.val = win0_5.index t (0 : Fin 2) * 4096 + 1 * p.val; omega
  | ⟨1, _⟩ => show t.val * 128 + r.val = win0_5.index t (1 : Fin 2) * 128 + 1 * r.val; omega

/-- An index of the output is in point t's block when each coordinate is in the block's range on its axis. -/
theorem mem_block (t : Fin cfg0.N) (i : S4096x12288.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v11).slice (win0_5.rect t)).set ↔ _
  rw [View.set_slice_whole, Rect.mem_set_unit]
  exact Iff.rfl

/-- Every entry of the output is written by some point: column n by point n / 128. -/
theorem covered (i : S4096x12288.Idx) :
    ∃ t : Fin cfg0.N, (cfg0.win 5).flush t = true ∧ i ∈ ((cfg0.win 5).blk t).view.set := by
  have hi0 : (i 0).val < 4096 := (i 0).isLt
  have hi1 : (i 1).val < 12288 := (i 1).isLt
  let t : Fin cfg0.N := ⟨(i 1).val / 128, by rw [show cfg0.N = 96 from N_0]; omega⟩
  obtain ⟨-, -, -, -, -, -, -, -, -, -, e50, e51⟩ := idx_facts t
  have ht : t.val = (i 1).val / 128 := rfl
  refine ⟨t, flush0_5 t, ?_⟩
  rw [mem_block]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- The output array after the run is the layer's output. -/
theorem result (c : Dev nD) : (dats m 0 c).arrAt 5 cfg0.N = layer m c :=
  (dats m 0 c).arrAt_eq_of_cover 5 (layer m c) (fun t _ => written_eq m c t) covered

/-! ## The run, read -/

/-- Every weakly fair execution of the kernel program ends with the output array at the layer's output of the argument
    arrays, and the arguments unchanged. -/
theorem run : θ_run defs (onTc (τ := τ) (main (F := Ideal))) ⟨m, fun _ => 0, ρ⟩ fun r => ∀ c : Dev nD,
      r.2.mem ((c : Thread nD τ).loc main_v11) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result m c), (h c).2⟩) (Value.run_blocks m ρ)

end Cert.KernelIdeal.Whole

end
-- ==== Proof.RefSide.lean ====
/-
  The reference computes the layer's output.

  The reference reads the whole numbers as reals, views each row of 3072 as 96 blocks of 32, multiplies each block by its
  scale, flattens the row again, and multiplies the activations by the transpose of the result, adding the bias. Position
  j of a flattened row is position j mod 32 of block j / 32, so the flattened entry (n, j) is q(n, j) · s(n, j / 32): the
  dequantized weight. The product with the transpose, read at (t, n), is the sum over j of x(t, j) times that weight.
-/
import proofs.«140299_j37804302139505_1_alg».proof.Proof.Gen.ReferenceIdeal.Read
import proofs.«140299_j37804302139505_1_alg».proof.Proof.DequantLinear

noncomputable section

namespace Cert.ReferenceIdeal.RefValue

open Cert.ReferenceIdeal Cert.ReferenceIdeal.Read Idealize.ShloMosaic Idealize.ShloMosaic.ValueIdx

/-- Entry (j, n) of the transposed weights is entry (n, j) of the flattened rows, which sits in block j / 32 at place
    j mod 32, and flattening it back lands on (n, j). -/
theorem weight_index (n : Fin 12288) (j : Fin 3072) :
    idx_main_v1 (idx_main_v5 (idx_main_v6 (ix2 j n))) = ix2 n j := by
  have hn := n.isLt
  have hj := j.isLt
  funext a
  apply Fin.ext
  match a with
  | ⟨0, _⟩ =>
    show (((n.val * 3072 + j.val) / 3072 * 96 + (n.val * 3072 + j.val) / 32 % 96) * 32 + (n.val * 3072 + j.val) % 32) / 3072 = n.val
    omega
  | ⟨1, _⟩ =>
    show (((n.val * 3072 + j.val) / 3072 * 96 + (n.val * 3072 + j.val) / 32 % 96) * 32 + (n.val * 3072 + j.val) % 32) % 3072 = j.val
    omega

/-- The scale that multiplies it is the scale of block j / 32 of row n. -/
theorem scale_index (n : Fin 12288) (j : Fin 3072) :
    idx_main_v2 (idx_main_v3 (idx_main_v5 (idx_main_v6 (ix2 j n)))) = ix2 n (DequantLinear.blockOf j) := by
  have hn := n.isLt
  have hj := j.isLt
  funext a
  apply Fin.ext
  match a with
  | ⟨0, _⟩ =>
    show (n.val * 3072 + j.val) / 3072 = n.val
    omega
  | ⟨1, _⟩ =>
    show (n.val * 3072 + j.val) / 32 % 96 = j.val / 32
    omega

/-- The reference's result is the layer's output. -/
theorem reference_eq (x0 : (⟨S4096x3072, .f32⟩ : BufTy).Contents (Elt Ideal)) (x1 : (⟨S12288x3072, .i32⟩ : BufTy).Contents (Elt Ideal))
    (x2 : (⟨S12288x96, .f32⟩ : BufTy).Contents (Elt Ideal)) (x3 : (⟨S12288, .f32⟩ : BufTy).Contents (Elt Ideal)) :
    val_main_v10 (F := Ideal) x0 x1 x2 x3 = DequantLinear.output x0 x1 x2 x3 := by
  funext i
  obtain ⟨t, n, rfl⟩ : ∃ (t : Fin 4096) (n : Fin 12288), i = ix2 t n := ⟨i 0, i 1, eq_ix2 i⟩
  rw [DequantLinear.output_apply, val_main_v10_apply, val_main_v7_apply, val_main_v9_apply, val_main_v8_apply]
  show (∑ k : Fin 3072, _) + _ = _
  congr 1
  · refine Finset.sum_congr rfl fun j _ => ?_
    have el : lidx_main_v7 (ix2 t n) j = ix2 t j := funext fun a => by
      match a with
      | ⟨0, _⟩ => rfl
      | ⟨1, _⟩ => rfl
    have er : ridx_main_v7 (ix2 t n) j = ix2 j n := funext fun a => by
      match a with
      | ⟨0, _⟩ => rfl
      | ⟨1, _⟩ => rfl
    rw [el, er, val_main_v6_apply, val_main_v5_apply, val_main_v4_apply, val_main_v1_apply, val_main_v0_apply,
      val_main_v3_apply, val_main_v2_apply, weight_index n j, scale_index n j]
    rfl
  · exact congrArg x3 (funext fun a => by
      match a with
      | ⟨0, _⟩ => rfl)

end Cert.ReferenceIdeal.RefValue

end
-- ==== Proof.lean ====
/-
  A linear layer with block-quantized weights: the kernel against its reference.

  The weights are stored as whole numbers q(n, j) with one scale s(n, k) per block of 32 consecutive columns, and the
  layer sends activations x to  y(t, n) = Σ_j x(t, j) · q(n, j) · s(n, j / 32) + b(n)  (DequantLinear.lean).

  The reference views each row as 96 blocks of 32, scales the blocks and flattens them again; position j of a row is
  place j mod 32 of block j / 32, so it computes y term by term (RefSide.lean).

  The kernel never reshapes. It multiplies the scales into a 0/1 matrix E, E(k, j) = 1 exactly when j / 32 = k, which the
  host builds beforehand from a floor division of the column positions (HostSide.lean, BlockOf32.lean). A sum against a
  column of E has one term that is not a scale times zero, so Σ_k s(n, k) · E(k, j) = s(n, j / 32) for every extended-real
  scale, finite or not (BlockOf32.lean). Each of the 96 grid points then forms 128 columns of y from its 128 rows of q and s
  (Tile.lean, TileOfLayer.lean), and the 96 blocks of columns tile the output (Whole.lean).

  Over the extended reals the changes of float format are the identity and the sums are plain finite sums, so the two
  programs end with the same array. No law used here needs a finite entry, and the precondition is never opened. The
  idealization rewrote no operation, so there is nothing to preserve beyond the text read at the ideal values.
-/
import proofs.«140299_j37804302139505_1_alg».proof.Defs
import proofs.«140299_j37804302139505_1_alg».proof.Proof.Gen.Kernel
import proofs.«140299_j37804302139505_1_alg».proof.Proof.Gen.Kernel.Skeleton
import proofs.«140299_j37804302139505_1_alg».proof.Proof.Gen.Kernel.Launch
import proofs.«140299_j37804302139505_1_alg».proof.Proof.Gen.Kernel.Points
import proofs.«140299_j37804302139505_1_alg».proof.Proof.Gen.Kernel.Frame
import proofs.«140299_j37804302139505_1_alg».proof.Proof.Gen.KernelIdeal
import proofs.«140299_j37804302139505_1_alg».proof.Proof.Gen.KernelIdeal.Skeleton
import proofs.«140299_j37804302139505_1_alg».proof.Proof.Gen.KernelIdeal.Launch
import proofs.«140299_j37804302139505_1_alg».proof.Proof.Gen.KernelIdeal.Points
import proofs.«140299_j37804302139505_1_alg».proof.Proof.Gen.KernelIdeal.Frame
import proofs.«140299_j37804302139505_1_alg».proof.Proof.Gen.ReferenceIdeal
import proofs.«140299_j37804302139505_1_alg».proof.Proof.Gen.Pre_finite_inputs
import proofs.«140299_j37804302139505_1_alg».proof.Proof.Gen.KernelIdeal.Value
import proofs.«140299_j37804302139505_1_alg».proof.Proof.Gen.ReferenceIdeal.Run
import proofs.«140299_j37804302139505_1_alg».proof.Proof.Gen.ReferenceIdeal.Read
import proofs.«140299_j37804302139505_1_alg».proof.Proof.Whole
import proofs.«140299_j37804302139505_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the ideal values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the four arguments both programs end with the layer's output of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.layer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
